-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x256x2 : Shape := ⟨3, ![256, 256, 2]⟩
abbrev S256x2 : Shape := ⟨2, ![256, 2]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256x2 : S_.BroadcastsInDim S256x256x2 (![] : Fin 0 → Fin S256x256x2.rank)
  reducesTo_S256x256x2_S_d0_1_2 : S256x256x2.ReducesTo [0, 1, 2] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S2048x256 .f32) (main_arg1 : FVec F S256x256x2 .f32) (main_arg2 : FVec F S256x2 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x256x2 .f32 := Host.absf main_arg1
  let main_cst_0 : FVec F S_ .f32 := constant S_ .f32 0x7F800000#32
  let main_v5 : FVec F S256x256x2 .f32 := broadcastInDim S256x256x2 ![] bcast_S_S256x256x2 main_cst_0
  let main_v6 : IVec S256x256x2 1 := cmpf .olt main_v4 main_v5
  let main_c_1 : IVec S_ 1 := constantI S_ 1 1#1
  let main_v7 : IVec S_ 1 := (fun x v => Host.reduce IntOp.andi x v reducesTo_S256x256x2_S_d0_1_2 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  main_v13
-- ==== Kernel.lean ====
abbrev S2048x256 : Shape := ⟨2, ![2048, 256]⟩
abbrev S256x256x2 : Shape := ⟨3, ![256, 256, 2]⟩
abbrev S256x2 : Shape := ⟨2, ![256, 2]⟩
abbrev S_ : Shape := ⟨0, ![]⟩
abbrev S256x256 : Shape := ⟨2, ![256, 256]⟩
abbrev S256x256x1 : Shape := ⟨3, ![256, 256, 1]⟩
abbrev S256 : Shape := ⟨1, ![256]⟩
abbrev S256x1 : Shape := ⟨2, ![256, 1]⟩
abbrev S1x256 : Shape := ⟨2, ![1, 256]⟩
abbrev S64x256 : Shape := ⟨2, ![64, 256]⟩
abbrev S128x256 : Shape := ⟨2, ![128, 256]⟩
abbrev S1x128 : Shape := ⟨2, ![1, 128]⟩
abbrev S64x128 : Shape := ⟨2, ![64, 128]⟩
abbrev S64x1x256 : Shape := ⟨3, ![64, 1, 256]⟩
abbrev S1x128x256 : Shape := ⟨3, ![1, 128, 256]⟩
abbrev S64x128x256 : Shape := ⟨3, ![64, 128, 256]⟩

abbrev nBuf : Space → Nat
  | .hbm => 42
  | .vmem => 12
  | .smem => 0
  | _ => 0

abbrev bufTy : (tb : Table) → Fin (tcTables nBuf tb) → BufTy
  | .hbm, ⟨0, _⟩ => ⟨S2048x256, .f32⟩
  | .hbm, ⟨1, _⟩ => ⟨S256x256x2, .f32⟩
  | .hbm, ⟨2, _⟩ => ⟨S256x2, .f32⟩
  | .hbm, ⟨3, _⟩ => ⟨S_, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256x1, .f32⟩
  | .hbm, ⟨9, _⟩ => ⟨S256x256x2, .f32⟩
  | .hbm, ⟨10, _⟩ => ⟨S256x256x2, .f32⟩
  | .hbm, ⟨11, _⟩ => ⟨S256x256x2, .f32⟩
  | .hbm, ⟨12, _⟩ => ⟨S_, .f32⟩
  | .hbm, ⟨13, _⟩ => ⟨S256x256, .f32⟩
  | .hbm, ⟨14, _⟩ => ⟨S256x256x1, .f32⟩
  | .hbm, ⟨15, _⟩ => ⟨S256x256x2, .f32⟩
  | .hbm, ⟨16, _⟩ => ⟨S256x256x2, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S256x2, .f32⟩
  | .hbm, ⟨24, _⟩ => ⟨S256x2, .f32⟩
  | .hbm, ⟨25, _⟩ => ⟨S256x2, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S256x2, .f32⟩
  | .hbm, ⟨30, _⟩ => ⟨S256x2, .f32⟩
  | .hbm, ⟨31, _⟩ => ⟨S256x256x1, .f32⟩
  | .hbm, ⟨32, _⟩ => ⟨S256x256, .f32⟩
  | .hbm, ⟨33, _⟩ => ⟨S256x256x1, .f32⟩
  | .hbm, ⟨34, _⟩ => ⟨S256x256, .f32⟩
  | .hbm, ⟨35, _⟩ => ⟨S256x1, .f32⟩
  | .hbm, ⟨36, _⟩ => ⟨S256, .f32⟩
  | .hbm, ⟨37, _⟩ => ⟨S1x256, .f32⟩
  | .hbm, ⟨38, _⟩ => ⟨S256x1, .f32⟩
  | .hbm, ⟨39, _⟩ => ⟨S256, .f32⟩
  | .hbm, ⟨40, _⟩ => ⟨S1x256, .f32⟩
  | .hbm, ⟨41, _⟩ => ⟨S2048x256, .f32⟩
  | .local _ .vmem, ⟨0, _⟩ => ⟨S64x256, .f32⟩
  | .local _ .vmem, ⟨1, _⟩ => ⟨S64x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S64x128, .f32⟩
  | .local _ .vmem, ⟨11, _⟩ => ⟨S64x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S256x256x2_S256x256_d2 : S256x256x2.ReducesTo [2] S256x256
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x2_0_1_2 : S256x256x1.BroadcastsInDim S256x256x2 (![0, 1, 2] : Fin 3 → Fin S256x256x2.rank)
  reducesTo_S256x2_S256_d1 : S256x2.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  slices_S256x2_S256x1_0_0 : S256x2.Slices ![0, 0] S256x1
  shapeCasts_S256x1_S256 : S256x1.ShapeCasts S256
  shapeCasts_S256_S1x256 : S256.ShapeCasts S1x256
  slices_S256x2_S256x1_0_1 : S256x2.Slices ![0, 1] S256x1
  inb_S64x256_S64x256_0_0 : ∀ a, (![0, 0] : Fin 2 → Nat) a + S64x256.size a ≤ S64x256.size a
  h_S64x256 : 0 < S64x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  reduces_S64x128x256_S64x128 : S64x128x256.Reduces [2] S64x128
  broadcasts_S1x128_S64x128 : S1x128.Broadcasts S64x128
  inb_S64x128_S64x128_0_0 : ∀ a, (![0, 0] : Fin 2 → Nat) a + S64x128.size a ≤ S64x128.size a
  h_S64x128 : 0 < S64x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S2048x256.size a
  hwx0_0 : ∀ i : grid0.Coords, EltTy.bits .f32 = 32 ∨ (Rect.block (s := S2048x256) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S256x256.size a
  hwx0_1 : ∀ i : grid0.Coords, EltTy.bits .f32 = 32 ∨ (Rect.block (s := S256x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S256x256.size a
  hwx0_2 : ∀ i : grid0.Coords, EltTy.bits .f32 = 32 ∨ (Rect.block (s := S256x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S2048x256.size a
  hwx0_5 : ∀ i : grid0.Coords, EltTy.bits .f32 = 32 ∨ (Rect.block (s := S2048x256) S64x128.size (cc0_transform_5 i) (hinb0_5 i)).WholeWords (EltTy.packing .f32)

variable [Facts₀]

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x256x2 : Shape := ⟨3, ![256, 256, 2]⟩
abbrev S256x2 : Shape := ⟨2, ![256, 2]⟩
abbrev S_ : Shape := ⟨0, ![]⟩
abbrev S256x256 : Shape := ⟨2, ![256, 256]⟩
abbrev S256x256x1 : Shape := ⟨3, ![256, 256, 1]⟩
abbrev S256 : Shape := ⟨1, ![256]⟩
abbrev S256x1 : Shape := ⟨2, ![256, 1]⟩
abbrev S2048x1x256 : Shape := ⟨3, ![2048, 1, 256]⟩
abbrev S1x256x256 : Shape := ⟨3, ![1, 256, 256]⟩
abbrev S2048x256x256 : Shape := ⟨3, ![2048, 256, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x256x2, .f32⟩
  | .hbm, ⟨2, _⟩ => ⟨S256x2, .f32⟩
  | .hbm, ⟨3, _⟩ => ⟨S_, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256x1, .f32⟩
  | .hbm, ⟨9, _⟩ => ⟨S256x256x2, .f32⟩
  | .hbm, ⟨10, _⟩ => ⟨S256x256x2, .f32⟩
  | .hbm, ⟨11, _⟩ => ⟨S256x256x2, .f32⟩
  | .hbm, ⟨12, _⟩ => ⟨S_, .f32⟩
  | .hbm, ⟨13, _⟩ => ⟨S256x256, .f32⟩
  | .hbm, ⟨14, _⟩ => ⟨S256x256x1, .f32⟩
  | .hbm, ⟨15, _⟩ => ⟨S256x256x2, .f32⟩
  | .hbm, ⟨16, _⟩ => ⟨S256x256x2, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S256x2, .f32⟩
  | .hbm, ⟨24, _⟩ => ⟨S256x2, .f32⟩
  | .hbm, ⟨25, _⟩ => ⟨S256x2, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S256x2, .f32⟩
  | .hbm, ⟨30, _⟩ => ⟨S256x2, .f32⟩
  | .hbm, ⟨31, _⟩ => ⟨S256x256x1, .f32⟩
  | .hbm, ⟨32, _⟩ => ⟨S256x256, .f32⟩
  | .hbm, ⟨33, _⟩ => ⟨S256x256x1, .f32⟩
  | .hbm, ⟨34, _⟩ => ⟨S256x256, .f32⟩
  | .hbm, ⟨35, _⟩ => ⟨S2048x1x256, .f32⟩
  | .hbm, ⟨36, _⟩ => ⟨S1x256x256, .f32⟩
  | .hbm, ⟨37, _⟩ => ⟨S2048x256x256, .f32⟩
  | .hbm, ⟨38, _⟩ => ⟨S2048x256x256, .f32⟩
  | .hbm, ⟨39, _⟩ => ⟨S2048x256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S1x256x256, .f32⟩
  | .hbm, ⟨44, _⟩ => ⟨S2048x256x256, .f32⟩
  | .hbm, ⟨45, _⟩ => ⟨S2048x256x256, .f32⟩
  | .hbm, ⟨46, _⟩ => ⟨S_, .f32⟩
  | .hbm, ⟨47, _⟩ => ⟨S2048x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S1x256x256, .f32⟩
  | .hbm, ⟨52, _⟩ => ⟨S2048x256x256, .f32⟩
  | .hbm, ⟨53, _⟩ => ⟨S2048x256x256, .f32⟩
  | .hbm, ⟨54, _⟩ => ⟨S_, .f32⟩
  | .hbm, ⟨55, _⟩ => ⟨S2048x256, .f32⟩
  | .hbm, ⟨56, _⟩ => ⟨S256x1, .f32⟩
  | .hbm, ⟨57, _⟩ => ⟨S256, .f32⟩
  | .hbm, ⟨58, _⟩ => ⟨S1x256, .f32⟩
  | .hbm, ⟨59, _⟩ => ⟨S2048x256, .f32⟩
  | .hbm, ⟨60, _⟩ => ⟨S2048x256, .f32⟩
  | .hbm, ⟨61, _⟩ => ⟨S256x1, .f32⟩
  | .hbm, ⟨62, _⟩ => ⟨S256, .f32⟩
  | .hbm, ⟨63, _⟩ => ⟨S1x256, .f32⟩
  | .hbm, ⟨64, _⟩ => ⟨S2048x256, .f32⟩
  | .hbm, ⟨65, _⟩ => ⟨S2048x256, .f32⟩
  | .hbm, ⟨66, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]

class Facts₀ : Prop where
  reducesTo_S256x256x2_S256x256_d2 : S256x256x2.ReducesTo [2] S256x256
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x2_0_1_2 : S256x256x1.BroadcastsInDim S256x256x2 (![0, 1, 2] : Fin 3 → Fin S256x256x2.rank)
  reducesTo_S256x2_S256_d1 : S256x2.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  bcast_S2048x256_S2048x1x256_0_2 : S2048x256.BroadcastsInDim S2048x1x256 (![0, 2] : Fin 2 → Fin S2048x1x256.rank)
  bcast_S256x256_S1x256x256_1_2 : S256x256.BroadcastsInDim S1x256x256 (![1, 2] : Fin 2 → Fin S1x256x256.rank)
  bcast_S2048x1x256_S2048x256x256_0_1_2 : S2048x1x256.BroadcastsInDim S2048x256x256 (![0, 1, 2] : Fin 3 → Fin S2048x256x256.rank)
  bcast_S1x256x256_S2048x256x256_0_1_2 : S1x256x256.BroadcastsInDim S2048x256x256 (![0, 1, 2] : Fin 3 → Fin S2048x256x256.rank)
  reducesTo_S2048x256x256_S2048x256_d2 : S2048x256x256.ReducesTo [2] S2048x256
  slices_S256x2_S256x1_0_0 : S256x2.Slices ![0, 0] S256x1
  shapeCasts_S256x1_S256 : S256x1.ShapeCasts S256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  slices_S256x2_S256x1_0_1 : S256x2.Slices ![0, 1] S256x1

variable [Facts₀]

class Facts : Prop extends Facts₀ where

variable [Facts]
-- ==== Proof.LibMinAxis.lean ====
/-
  Two readings a value proof over the extended reals needs and the library does not state.

  A minimum reduction over ONE axis of a vector of any rank, read at a result index, is the fold of `min`, from the
  accumulator's value, over that axis's coordinates (the maximum's analogue is in the library). And a vector with two
  leading unit axes, [1, 1, a], cast to [a] or back, keeps each entry: (0, 0, i) ↔ i.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Idealize.ShloMosaic.MinAxis

open Idealize.ShloMosaic Idealize.ShloMosaic.ValueIdx

/-! ## A minimum over one axis -/

/-- A minimum reduction over ONE axis, over the extended reals: the fold of `min`, from the accumulator's value, over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## Two leading unit axes added to or dropped from a vector -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- An `[a]` array cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]; omega)

end Layout

end Idealize.ShloMosaic.MinAxis

end
-- ==== Proof.Spec.lean ====
/-
  The value both programs compute, and the reductions and layouts they reach it through, read at an index.

  For a batch row b and an output feature o the layer takes, over the 256 input features k, the fuzzy-logic
  edge values  e(k) = x[b,k] · pe[o,k]  and combines them with the "no edge" probabilities pn[o,k]:
      tnorm  (b,o) = min over k of ( e(k) + 1 · pn[o,k] )        (from +∞)
      tconorm(b,o) = max over k of ( e(k) + (−1) · pn[o,k] )     (from −∞)
      out    (b,o) = tnorm(b,o) · q0[o] + tconorm(b,o) · q1[o].
  `mixRow` is that expression of the three rows and the two weights; `mixAll` is the whole [2048, 256] array.
  A minimum or maximum over the last axis of a rank-3 array — the vector unit's reduction and the host's —
  is, at (p, q), the fold of min / max over k of the entry (p, q, k), whatever order either walks in.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import proofs.«132471_j80041010528656_1_alg».proof.Proof.LibMinAxis

noncomputable section

namespace Cert.EdgeNode

open Idealize.ShloMosaic Idealize.ShloMosaic.ValueIdx

/-! ## The specification -/

/-- One output entry from row `xr` of the batch, rows `per`, `pnr` of the two edge-probability tables and the two
    operator weights `a0`, `a1`. The four literals are +∞, 1, −∞, −1 as f32 words, never evaluated. -/
def mixRow {I : Nat} (xr per pnr : Fin I → EReal) (a0 a1 : EReal) : EReal :=
  (Finset.univ : Finset (Fin I)).fold min (Ideal.ofBits .f32 0x7F800000#32)
      (fun k => xr k * per k + Ideal.ofBits .f32 0x3F800000#32 * pnr k) * a0
  + (Finset.univ : Finset (Fin I)).fold max (Ideal.ofBits .f32 0xFF800000#32)
      (fun k => xr k * per k + Ideal.ofBits .f32 0xBF800000#32 * pnr k) * a1

/-- The whole result: entry (b, o) is `mixRow` of row b of `X`, rows o of `PE`, `PN`, and `Q0 o`, `Q1 o`. -/
def mixAll {B O I : Nat} (X : (⟨2, ![B, I]⟩ : Shape).Idx → EReal) (PE PN : (⟨2, ![O, I]⟩ : Shape).Idx → EReal)
    (Q0 Q1 : (⟨1, ![O]⟩ : Shape).Idx → EReal) : (⟨2, ![B, O]⟩ : Shape).Idx → EReal :=
  fun i => mixRow (fun k => X (ix2 (i 0) k)) (fun k => PE (ix2 (i 1) k)) (fun k => PN (ix2 (i 1) k)) (Q0 (ix1 (i 1))) (Q1 (ix1 (i 1)))

theorem mixAll_ix2 {B O I : Nat} (X : (⟨2, ![B, I]⟩ : Shape).Idx → EReal) (PE PN : (⟨2, ![O, I]⟩ : Shape).Idx → EReal)
    (Q0 Q1 : (⟨1, ![O]⟩ : Shape).Idx → EReal) (b : Fin B) (o : Fin O) :
    mixAll X PE PN Q0 Q1 (ix2 b o)
      = mixRow (fun k => X (ix2 b k)) (fun k => PE (ix2 o k)) (fun k => PN (ix2 o k)) (Q0 (ix1 o)) (Q1 (ix1 o)) := rfl

/-! ## Reductions over the last of three axes, at an index -/

/-- The source index over (p, q) with k on the reduced last axis is (p, q, k). -/
theorem lift_last {n0 n1 n2 : Nat} (h : (⟨3, ![n0, n1, n2]⟩ : Shape).Reduces [2] ⟨2, ![n0, n1]⟩) (p : Fin n0) (q : Fin n1)
    (k : Fin n2) : h.lift (ix2 p q) k = ix3 p q k := by
  funext c
  apply Fin.ext
  match c with
  | ⟨0, _⟩ => rfl
  | ⟨1, _⟩ => rfl
  | ⟨2, _⟩ => rfl

/-- The vector unit's minimum over the last axis, at (p, q): the fold of min over k of the entry (p, q, k). -/
theorem minLast_apply {φ : FTy} {n0 n1 n2 : Nat} (src : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.minimumf.neutral φ hφ) (p : Fin n0) (q : Fin n1) :
    multiReduction .minimumf [2] ⟨2, ![n0, n1]⟩ src acc h hφ hacc (ix2 p q)
      = (Finset.univ : Finset (Fin n2)).fold min (Ideal.ofBits φ acc) (fun k => src (ix3 p q k)) := by
  rw [MinAxis.multiReduction_minimumf_single]
  exact congrArg (fun f => (Finset.univ : Finset (Fin n2)).fold min (Ideal.ofBits φ acc) f)
    (funext fun k => congrArg src (lift_last h p q k))

/-- The vector unit's maximum over the last axis, at (p, q). -/
theorem maxLast_apply {φ : FTy} {n0 n1 n2 : Nat} (src : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.maximumf.neutral φ hφ) (p : Fin n0) (q : Fin n1) :
    multiReduction .maximumf [2] ⟨2, ![n0, n1]⟩ src acc h hφ hacc (ix2 p q)
      = (Finset.univ : Finset (Fin n2)).fold max (Ideal.ofBits φ acc) (fun k => src (ix3 p q k)) := by
  rw [Ideal.multiReduction_maximumf_single]
  exact congrArg (fun f => (Finset.univ : Finset (Fin n2)).fold max (Ideal.ofBits φ acc) f)
    (funext fun k => congrArg src (lift_last h p q k))

/-- The host's minimum-reduce over the last axis, at (p, q): the same fold, from the initial value's one entry. -/
theorem hostMinLast_apply {φ : FTy} {n0 n1 n2 : Nat} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (p : Fin n0) (q : Fin n1) :
    Host.reduce (FloatOps.minimumf (F := Ideal) (φ := φ)) x init h' hu (ix2 p q)
      = (Finset.univ : Finset (Fin n2)).fold min (init (Shape.Idx.first hu)) (fun k => x (ix3 p q k)) := by
  rw [Host.reduce_eq_fold_single (FloatOps.minimumf (F := Ideal) (φ := φ)) x init h' h hu (ix2 p q)]
  exact congrArg (fun f => (Finset.univ : Finset (Fin n2)).fold min (init (Shape.Idx.first hu)) f)
    (funext fun k => congrArg x (lift_last h p q k))

/-- The host's maximum-reduce over the last axis, at (p, q). -/
theorem hostMaxLast_apply {φ : FTy} {n0 n1 n2 : Nat} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (p : Fin n0) (q : Fin n1) :
    Host.reduce (FloatOps.maximumf (F := Ideal) (φ := φ)) x init h' hu (ix2 p q)
      = (Finset.univ : Finset (Fin n2)).fold max (init (Shape.Idx.first hu)) (fun k => x (ix3 p q k)) := by
  rw [Host.reduce_eq_fold_single (FloatOps.maximumf (F := Ideal) (φ := φ)) x init h' h hu (ix2 p q)]
  exact congrArg (fun f => (Finset.univ : Finset (Fin n2)).fold max (init (Shape.Idx.first hu)) f)
    (funext fun k => congrArg x (lift_last h p q k))

end Cert.EdgeNode

end
-- ==== Proof.KernelPay.lean ====
/-
  The kernel's one store, read at an index of its [64, 128] block.

  The body lays the x block [64, 256] out as [64, 1, 256] and the two probability blocks [128, 256] as [1, 128, 256],
  broadcasts all three to [64, 128, 256], forms  x·pe + 1·pn  and  x·pe + (−1)·pn  there, reduces the last axis by min
  and by max, and weights the two [64, 128] results by the rows n0, n1 [1, 128] broadcast down the 64 rows.
  At (p, q) that is `mixRow` of row p of the x block, rows q of the probability blocks and entries q of n0, n1.
-/
import proofs.«132471_j80041010528656_1_alg».proof.Proof.Gen.KernelIdeal.Skeleton
import proofs.«132471_j80041010528656_1_alg».proof.Proof.Spec

noncomputable section

namespace Cert.EdgeNode.Kernel

open Cert.KernelIdeal Cert.KernelIdeal.Gen Cert.EdgeNode Idealize.ShloMosaic Idealize.ShloMosaic.ValueIdx

/-- The x block with a unit middle axis: (p, ·, k) is (p, k). -/
theorem cast_x (P0 : Vec Ideal S64x256 .f32) (p : Fin 64) (u : Fin 1) (k : Fin 256) :
    shapeCast S64x1x256 P0 shapeCasts_S64x256_S64x1x256 (ix3 p u k) = P0 (ix2 p k) :=
  shapeCast_apply P0 shapeCasts_S64x256_S64x1x256 (ix3 p u k) (ix2 p k) (by
    have hu : u.val = 0 := by omega
    rw [Shape.rowMajor_val_two, Shape.rowMajor_val_three]
    show p.val * 256 + k.val = (p.val * 1 + u.val) * 256 + k.val
    omega)

/-- A [64, 1, 256] array spread over the 128 output features reads (p, 0, k) at (p, q, k). -/
theorem spread_x (v : FVec Ideal S64x1x256 .f32) (p : Fin 64) (q : Fin 128) (k : Fin 256) :
    broadcastTo S64x128x256 v broadcasts_S64x1x256_S64x128x256 (ix3 p q k) = v (ix3 p (0 : Fin 1) k) := by
  refine broadcastTo_apply v broadcasts_S64x1x256_S64x128x256 (ix3 p q k) (ix3 p (0 : Fin 1) k) fun ax => ?_
  match ax with
  | ⟨0, _⟩ => show p.val = if (64 : Nat) = 1 then 0 else p.val; rw [if_neg (by decide)]
  | ⟨1, _⟩ => show (0 : Nat) = if (1 : Nat) = 1 then 0 else q.val; rw [if_pos rfl]
  | ⟨2, _⟩ => show k.val = if (256 : Nat) = 1 then 0 else k.val; rw [if_neg (by decide)]

/-- A [1, 128, 256] array spread over the 64 batch rows reads (0, q, k) at (p, q, k). -/
theorem spread_w (v : FVec Ideal S1x128x256 .f32) (p : Fin 64) (q : Fin 128) (k : Fin 256) :
    broadcastTo S64x128x256 v broadcasts_S1x128x256_S64x128x256 (ix3 p q k) = v (ix3 (0 : Fin 1) q k) := by
  refine broadcastTo_apply v broadcasts_S1x128x256_S64x128x256 (ix3 p q k) (ix3 (0 : Fin 1) q k) fun ax => ?_
  match ax with
  | ⟨0, _⟩ => show (0 : Nat) = if (1 : Nat) = 1 then 0 else p.val; rw [if_pos rfl]
  | ⟨1, _⟩ => show q.val = if (128 : Nat) = 1 then 0 else q.val; rw [if_neg (by decide)]
  | ⟨2, _⟩ => show k.val = if (256 : Nat) = 1 then 0 else k.val; rw [if_neg (by decide)]

/-- A probability block under its leading unit axis: (·, q, k) is (q, k). -/
theorem cast_w (v : FVec Ideal S128x256 .f32) (u : Fin 1) (q : Fin 128) (k : Fin 256) :
    shapeCast S1x128x256 v shapeCasts_S128x256_S1x128x256 (ix3 u q k) = v (ix2 q k) :=
  shapeCast_ab_1ab_apply v shapeCasts_S128x256_S1x128x256 u q k

/-- The [64, 128, 256] array the body reduces, with either constant `c1` in front of the no-edge block:
    at (p, q, k) it is  x[p,k] · pe[q,k] + c1 · pn[q,k]. -/
theorem edge_apply (P0 : Vec Ideal S64x256 .f32) (P1 P2 : Vec Ideal S128x256 .f32) (c1 : Ideal .f32)
    (p : Fin 64) (q : Fin 128) (k : Fin 256) :
    (addf (mulf (broadcastTo S64x128x256 (shapeCast S64x1x256 P0 shapeCasts_S64x256_S64x1x256) broadcasts_S64x1x256_S64x128x256)
                (broadcastTo S64x128x256 (shapeCast S1x128x256 (shapeCast S128x256 P1 shapeCasts_S128x256_S128x256) shapeCasts_S128x256_S1x128x256) broadcasts_S1x128x256_S64x128x256))
          (broadcastTo S64x128x256 (mulf (broadcast S1x128x256 c1) (shapeCast S1x128x256 (shapeCast S128x256 P2 shapeCasts_S128x256_S128x256) shapeCasts_S128x256_S1x128x256)) broadcasts_S1x128x256_S64x128x256)
        : FVec Ideal S64x128x256 .f32) (ix3 p q k)
      = P0 (ix2 p k) * P1 (ix2 q k) + c1 * P2 (ix2 q k) := by
  rw [addf_apply, mulf_apply, spread_x, cast_x, spread_w, spread_w, mulf_apply, broadcast_apply, shapeCast_self, shapeCast_self,
    cast_w, cast_w]

/-- A weight row [1, 128] broadcast down the 64 batch rows reads its entry q at (p, q). -/
theorem row_apply (P : Vec Ideal S1x128 .f32) (p : Fin 64) (q : Fin 128) :
    broadcastTo S64x128 (shapeCast S1x128 P shapeCasts_S1x128_S1x128) broadcasts_S1x128_S64x128 (ix2 p q)
      = P (ix2 (0 : Fin 1) q) := by
  rw [shapeCast_self]
  exact broadcastTo_1b_ab_apply P broadcasts_S1x128_S64x128 p q

/-- THE STORE AT (p, q). -/
theorem pay_apply (P0 : Vec Ideal S64x256 .f32) (P1 P2 : Vec Ideal S128x256 .f32) (P3 P4 : Vec Ideal S1x128 .f32)
    (p : Fin 64) (q : Fin 128) :
    k0_pay1 P0 P1 P2 P3 P4 (ix2 p q)
      = mixRow (fun k => P0 (ix2 p k)) (fun k => P1 (ix2 q k)) (fun k => P2 (ix2 q k)) (P3 (ix2 (0 : Fin 1) q)) (P4 (ix2 (0 : Fin 1) q)) := by
  unfold k0_pay1 mixRow
  dsimp only
  rw [addf_apply, mulf_apply, mulf_apply, row_apply, row_apply]
  refine congrArg₂ (fun a c : EReal => a * P3 (ix2 (0 : Fin 1) q) + c * P4 (ix2 (0 : Fin 1) q)) ?_ ?_
  · refine (minLast_apply _ _ _ _ _ p q).trans ?_
    exact congrArg (fun f => (Finset.univ : Finset (Fin 256)).fold min (Ideal.ofBits .f32 0x7F800000#32) f)
      (funext fun k => edge_apply P0 P1 P2 _ p q k)
  · refine (maxLast_apply _ _ _ _ _ p q).trans ?_
    exact congrArg (fun f => (Finset.univ : Finset (Fin 256)).fold max (Ideal.ofBits .f32 0xFF800000#32) f)
      (funext fun k => edge_apply P0 P1 P2 _ p q k)

end Cert.EdgeNode.Kernel

end
-- ==== Proof.HostPrefix.lean ====
/-
  What the kernel's program has put into the operand arrays of its one call by the time the call is entered.

  Before the call the program forms, exactly as the reference does, the softmax of the edge weights over the two edge
  types and the softmax of the node weights over the two operators, slices each into its two halves and reshapes them:
  the edge-probability tables pe, pn [256, 256] and the operator-weight vectors [256], which it hands to the call as
  rows [1, 256]. The same operations in the same order give the same arrays: each is the reference's stage of that
  name, applied to the same argument.
-/
import proofs.«132471_j80041010528656_1_alg».proof.Proof.Gen.KernelIdeal.Frame
import proofs.«132471_j80041010528656_1_alg».proof.Proof.Gen.ReferenceIdeal.Read
import Idealize.ShloMosaic.Lib.StableHlo.Run

noncomputable section

namespace Cert.EdgeNode.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The edge table the call reads is the reference's: the first slice of the edge softmax, as [256, 256]. -/
theorem V_pe (c : Dev nD) :
    (V m c main_v23 : S256x256.Idx → Elt F .f32)
      = Cert.ReferenceIdeal.Read.val_main_v23 (F := F) (m ((c : Thread nD τ).loc main_arg1)) := by
  dsimp only [V, hostOps0]
  after_results
  rfl

/-- The no-edge table the call reads is the reference's: the second slice of the edge softmax, as [256, 256]. -/
theorem V_pn (c : Dev nD) :
    (V m c main_v25 : S256x256.Idx → Elt F .f32)
      = Cert.ReferenceIdeal.Read.val_main_v25 (F := F) (m ((c : Thread nD τ).loc main_arg1)) := by
  dsimp only [V, hostOps0]
  after_results
  rfl

set_option maxHeartbeats 1000000 in
/-- The first weight row the call reads is the reference's first operator-weight vector, as one row. -/
theorem V_n0 (c : Dev nD) :
    (V m c main_v28 : S1x256.Idx → Elt F .f32)
      = shapeCast S1x256 (Cert.ReferenceIdeal.Read.val_main_v44 (F := F) (m ((c : Thread nD τ).loc main_arg2))) shapeCasts_S256_S1x256 := by
  dsimp only [V, hostOps0]
  after_results_simp <;> rfl

set_option maxHeartbeats 1000000 in
/-- The second weight row the call reads is the reference's second operator-weight vector, as one row. -/
theorem V_n1 (c : Dev nD) :
    (V m c main_v31 : S1x256.Idx → Elt F .f32)
      = shapeCast S1x256 (Cert.ReferenceIdeal.Read.val_main_v49 (F := F) (m ((c : Thread nD τ).loc main_arg2))) shapeCasts_S256_S1x256 := by
  dsimp only [V, hostOps0]
  after_results_simp <;> rfl

end Cert.EdgeNode.Host

end
-- ==== Proof.KernelArray.lean ====
/-
  The array the kernel's program leaves: block by block it is `mixAll` of x and of the tables and weights its own
  host operations prepared, which are the reference's stages.

  The call runs on a 2 × 32 grid. At the point with coordinates (go, gb) it reads rows gb·64 … gb·64+63 of x, rows
  go·128 … go·128+127 of the two probability tables, entries go·128 … of the two weight rows, and writes the
  [64, 128] block (gb, go) of the result. Each block entry (p, q) is the entry (gb·64 + p, go·128 + q) of `mixAll`; the
  64 blocks tile the [2048, 256] result, so the whole array is `mixAll`.
-/
import proofs.«132471_j80041010528656_1_alg».proof.Proof.BlockValue
import proofs.«132471_j80041010528656_1_alg».proof.Proof.KernelPay
import proofs.«132471_j80041010528656_1_alg».proof.Proof.HostPrefix
import proofs.«132471_j80041010528656_1_alg».proof.Proof.Gen.KernelIdeal.Points

noncomputable section

namespace Cert.EdgeNode.Kernel

open Cert.KernelIdeal Cert.KernelIdeal.Gen Cert.KernelIdeal.BlockValue Cert.EdgeNode Idealize.ShloMosaic
open Idealize.ShloMosaic.TcCoe Idealize.SL.Sem Idealize.ShloMosaic.ValueIdx
open Idealize.ShloMosaic.Pipeline (Dat)
open Cert.ReferenceIdeal.Read (val_main_v23 val_main_v25 val_main_v44 val_main_v49)

variable (m : (ℓ : Loc nD τ sig) → Buf (Elt Ideal) ℓ) (ρ : Dev nD → PrngReg)

/-- What the program leaves in its result array, as one function of its three arguments. -/
def result (c : Dev nD) : S2048x256.Idx → Elt Ideal .f32 :=
  mixAll (m ((c : Thread nD τ).loc main_arg0))
    (val_main_v23 (F := Ideal) (m ((c : Thread nD τ).loc main_arg1)))
    (val_main_v25 (F := Ideal) (m ((c : Thread nD τ).loc main_arg1)))
    (val_main_v44 (F := Ideal) (m ((c : Thread nD τ).loc main_arg2)))
    (val_main_v49 (F := Ideal) (m ((c : Thread nD τ).loc main_arg2)))

theorem hz : (![0, 0] : Fin 2 → Nat) = fun _ => 0 := funext fun a => by fin_cases a <;> rfl

/-! ## One block -/

/-- A block entry is the array entry under it: if the five loaded blocks are the rows gb·64 + · of `X`, the rows
    go·128 + · of `PE`, `PN` and the entries go·128 + · of the rows `N0`, `N1` (which hold the vectors `Q0`, `Q1`),
    the stored value at `y` is `mixAll` at the index `i` that lies gb·64, go·128 further on. -/
theorem block_eq (P0 : Vec Ideal S64x256 .f32) (P1 P2 : Vec Ideal S128x256 .f32) (P3 P4 : Vec Ideal S1x128 .f32)
    (X : FVec Ideal S2048x256 .f32) (PE PN : FVec Ideal S256x256 .f32) (N0 N1 : FVec Ideal S1x256 .f32)
    (Q0 Q1 : FVec Ideal S256 .f32)
    (hN0 : ∀ o : Fin 256, N0 (ix2 (0 : Fin 1) o) = Q0 (ix1 o)) (hN1 : ∀ o : Fin 256, N1 (ix2 (0 : Fin 1) o) = Q1 (ix1 o))
    (gb go : Nat)
    (h0 : ∀ (y : S64x256.Idx) (i : S2048x256.Idx), (i 0).val = gb * 64 + (y 0).val → (i 1).val = (y 1).val → P0 y = X i)
    (h1 : ∀ (y : S128x256.Idx) (i : S256x256.Idx), (i 0).val = go * 128 + (y 0).val → (i 1).val = (y 1).val → P1 y = PE i)
    (h2 : ∀ (y : S128x256.Idx) (i : S256x256.Idx), (i 0).val = go * 128 + (y 0).val → (i 1).val = (y 1).val → P2 y = PN i)
    (h3 : ∀ (y : S1x128.Idx) (i : S1x256.Idx), (i 1).val = go * 128 + (y 1).val → P3 y = N0 i)
    (h4 : ∀ (y : S1x128.Idx) (i : S1x256.Idx), (i 1).val = go * 128 + (y 1).val → P4 y = N1 i)
    (y : S64x128.Idx) (i : S2048x256.Idx) (hi0 : (i 0).val = gb * 64 + (y 0).val) (hi1 : (i 1).val = go * 128 + (y 1).val) :
    k0_pay1 P0 P1 P2 P3 P4 y = mixAll X PE PN Q0 Q1 i := by
  obtain ⟨p, q, rfl⟩ : ∃ (p : Fin 64) (q : Fin 128), y = ix2 p q := ⟨y 0, y 1, eq_ix2 y⟩
  obtain ⟨b, o, rfl⟩ : ∃ (b : Fin 2048) (o : Fin 256), i = ix2 b o := ⟨i 0, i 1, eq_ix2 i⟩
  have hb : b.val = gb * 64 + p.val := hi0
  have ho : o.val = go * 128 + q.val := hi1
  rw [pay_apply, mixAll_ix2]
  have e0 : (fun k : Fin 256 => P0 (ix2 p k)) = fun k => X (ix2 b k) := funext fun k => h0 (ix2 p k) (ix2 b k) hb rfl
  have e1 : (fun k : Fin 256 => P1 (ix2 q k)) = fun k => PE (ix2 o k) := funext fun k => h1 (ix2 q k) (ix2 o k) ho rfl
  have e2 : (fun k : Fin 256 => P2 (ix2 q k)) = fun k => PN (ix2 o k) := funext fun k => h2 (ix2 q k) (ix2 o k) ho rfl
  have e3 : P3 (ix2 (0 : Fin 1) q) = Q0 (ix1 o) := (h3 (ix2 (0 : Fin 1) q) (ix2 (0 : Fin 1) o) ho).trans (hN0 o)
  have e4 : P4 (ix2 (0 : Fin 1) q) = Q1 (ix1 o) := (h4 (ix2 (0 : Fin 1) q) (ix2 (0 : Fin 1) o) ho).trans (hN1 o)
  rw [e0, e1, e2, e3, e4]

/-! ## The grid -/

/-- The printed index maps over the 64 grid points: x moves with the output's row blocks, the tables and the weight
    rows with its column blocks, and nothing else moves. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) < 32 ∧ win0_5.index t (1 : Fin 2) < 2 :=
  (by decide +kernel : ∀ t : Fin grid0.N, _)

/-- Every one of the 32 × 2 output blocks is some point's. -/
theorem idx_onto : ∀ (q0 : Fin 32) (q1 : Fin 2), ∃ t : Fin cfg0.N, win0_5.index t = ![q0.val, q1.val] :=
  (by decide +kernel : ∀ (q0 : Fin 32) (q1 : Fin 2), ∃ t : Fin grid0.N, win0_5.index t = ![q0.val, q1.val])

/-- The weight rows the call reads hold the reference's operator-weight vectors. -/
theorem row0_apply (c : Dev nD) (o : Fin 256) :
    (V m c main_v28 : S1x256.Idx → Elt Ideal .f32) (ix2 (0 : Fin 1) o)
      = val_main_v44 (F := Ideal) (m ((c : Thread nD τ).loc main_arg2)) (ix1 o) := by
  rw [Host.V_n0 m c]
  exact shapeCast_a_1a_apply _ shapeCasts_S256_S1x256 (0 : Fin 1) o

theorem row1_apply (c : Dev nD) (o : Fin 256) :
    (V m c main_v31 : S1x256.Idx → Elt Ideal .f32) (ix2 (0 : Fin 1) o)
      = val_main_v49 (F := Ideal) (m ((c : Thread nD τ).loc main_arg2)) (ix1 o) := by
  rw [Host.V_n1 m c]
  exact shapeCast_a_1a_apply _ shapeCasts_S256_S1x256 (0 : Fin 1) o

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5 m c t]
  unfold out0_5
  rw [View.canon_unit_zero hz]
  simp only [View.ld_unit_zero (S := S64x256) hz, View.ld_unit_zero (S := S128x256) hz, View.ld_unit_zero (S := S1x128) hz]
  obtain ⟨e00, e01, e10, e11, e20, e21, e30, e31, e40, e41, b0, b1⟩ := idx_facts t
  funext j
  show k0_pay1 (iblk m c 0 t) (iblk m c 1 t) (iblk m c 2 t) (iblk m c 3 t) (iblk m c 4 t) j
    = result m c (((cfg0.win 5).blk t).view.emb j)
  unfold result
  refine block_eq (iblk m c 0 t) (iblk m c 1 t) (iblk m c 2 t) (iblk m c 3 t) (iblk m c 4 t)
    (m ((c : Thread nD τ).loc main_arg0))
    (val_main_v23 (F := Ideal) (m ((c : Thread nD τ).loc main_arg1)))
    (val_main_v25 (F := Ideal) (m ((c : Thread nD τ).loc main_arg1)))
    (V m c main_v28) (V m c main_v31)
    (val_main_v44 (F := Ideal) (m ((c : Thread nD τ).loc main_arg2)))
    (val_main_v49 (F := Ideal) (m ((c : Thread nD τ).loc main_arg2)))
    (row0_apply m c) (row1_apply m c) (win0_5.index t (0 : Fin 2)) (win0_5.index t (1 : Fin 2))
    ?_ ?_ ?_ ?_ ?_ j (((cfg0.win 5).blk t).view.emb j) ?_ ?_
  · intro y i hy0 hy1
    show V m c main_arg0 (((cfg0.win 0).blk t).view.emb y) = _
    rw [V_main_arg0 m c]
    refine congrArg _ (funext fun a => Fin.ext ?_)
    match a with
    | ⟨0, _⟩ => show win0_0.index t (0 : Fin 2) * 64 + 1 * (y 0).val = (i 0).val; omega
    | ⟨1, _⟩ => show win0_0.index t (1 : Fin 2) * 256 + 1 * (y 1).val = (i 1).val; omega
  · intro y i hy0 hy1
    show V m c main_v23 (((cfg0.win 1).blk t).view.emb y) = _
    rw [Host.V_pe m c]
    refine congrArg _ (funext fun a => Fin.ext ?_)
    match a with
    | ⟨0, _⟩ => show win0_1.index t (0 : Fin 2) * 128 + 1 * (y 0).val = (i 0).val; omega
    | ⟨1, _⟩ => show win0_1.index t (1 : Fin 2) * 256 + 1 * (y 1).val = (i 1).val; omega
  · intro y i hy0 hy1
    show V m c main_v25 (((cfg0.win 2).blk t).view.emb y) = _
    rw [Host.V_pn m c]
    refine congrArg _ (funext fun a => Fin.ext ?_)
    match a with
    | ⟨0, _⟩ => show win0_2.index t (0 : Fin 2) * 128 + 1 * (y 0).val = (i 0).val; omega
    | ⟨1, _⟩ => show win0_2.index t (1 : Fin 2) * 256 + 1 * (y 1).val = (i 1).val; omega
  · intro y i hy1
    show V m c main_v28 (((cfg0.win 3).blk t).view.emb y) = _
    refine congrArg _ (funext fun a => Fin.ext ?_)
    match a with
    | ⟨0, _⟩ =>
      show win0_3.index t (0 : Fin 2) * 1 + 1 * (y 0).val = (i 0).val
      have hy : (y 0).val < 1 := (y 0).isLt
      have hi : (i 0).val < 1 := (i 0).isLt
      omega
    | ⟨1, _⟩ => show win0_3.index t (1 : Fin 2) * 128 + 1 * (y 1).val = (i 1).val; omega
  · intro y i hy1
    show V m c main_v31 (((cfg0.win 4).blk t).view.emb y) = _
    refine congrArg _ (funext fun a => Fin.ext ?_)
    match a with
    | ⟨0, _⟩ =>
      show win0_4.index t (0 : Fin 2) * 1 + 1 * (y 0).val = (i 0).val
      have hy : (y 0).val < 1 := (y 0).isLt
      have hi : (i 0).val < 1 := (i 0).isLt
      omega
    | ⟨1, _⟩ => show win0_4.index t (1 : Fin 2) * 128 + 1 * (y 1).val = (i 1).val; omega
  · show win0_5.index t (0 : Fin 2) * 64 + 1 * (j 0).val = win0_5.index t (0 : Fin 2) * 64 + (j 0).val; omega
  · show win0_5.index t (1 : Fin 2) * 128 + 1 * (j 1).val = win0_5.index t (1 : Fin 2) * 128 + (j 1).val; omega

/-! ## The cover -/

/-- An index of the result is in point `t`'s block iff each coordinate is in the block's range on its axis. -/
theorem mem_blk (t : Fin cfg0.N) (i : S2048x256.Idx) :
    i ∈ ((cfg0.win 5).blk t).view.set ↔ ∀ a : Fin 2, win0_5.index t a * S64x128.size a ≤ (i a).val ∧ (i a).val < win0_5.index t a * S64x128.size a + S64x128.size a := by
  show i ∈ ((View.whole main_v32).slice (win0_5.rect t)).set ↔ _
  rw [View.set_slice_whole, Rect.mem_set_unit]
  exact Iff.rfl

/-- Every index of the result lies in the block of the point whose block indices are (row / 64, column / 128). -/
theorem cover (i : S2048x256.Idx) : ∃ t : Fin cfg0.N, (cfg0.win 5).flush t = true ∧ i ∈ ((cfg0.win 5).blk t).view.set := by
  have hi0 : (i 0).val < 2048 := (i 0).isLt
  have hi1 : (i 1).val < 256 := (i 1).isLt
  obtain ⟨t, ht⟩ := idx_onto ⟨(i 0).val / 64, by omega⟩ ⟨(i 1).val / 128, by omega⟩
  have q0 : win0_5.index t (0 : Fin 2) = (i 0).val / 64 := congrFun ht 0
  have q1 : win0_5.index t (1 : Fin 2) = (i 1).val / 128 := congrFun ht 1
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 128 ≤ (i 1).val ∧ (i 1).val < win0_5.index t (1 : Fin 2) * 128 + 128; omega

/-! ## The array, and the run -/

/-- THE RESULT ARRAY after the run is `result`. -/
theorem final (c : Dev nD) : (dats m 0 c).arrAt 5 cfg0.N = result m c :=
  (dats m 0 c).arrAt_eq_of_cover 5 (result m c) (fun t _ => flushed_eq m c t) cover

/-- Every weakly fair execution of the kernel's program ends with its result array at `result` and its arguments unchanged. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.EdgeNode.Kernel

end
-- ==== Proof.RefValue.lean ====
/-
  The reference's result, read at an index: it is `mixAll` of x, of the two edge-probability tables as the reference
  forms them (the two slices of the softmax over edge types, reshaped to [256, 256]) and of the two operator weights
  (the two columns of the softmax over operators, as vectors [256]).

  The reference spreads x to [2048, 1, 256] and the tables to [1, 256, 256], broadcasts both to [2048, 256, 256], forms
  x·pe + 1·pn and x·pe + (−1)·pn there, reduces the last axis by min and by max on the host, and weights the two
  [2048, 256] results by the operator weights broadcast down the batch.
-/
import proofs.«132471_j80041010528656_1_alg».proof.Proof.Gen.ReferenceIdeal.Read
import proofs.«132471_j80041010528656_1_alg».proof.Proof.Spec

noncomputable section

namespace Cert.EdgeNode.Ref

open Cert.ReferenceIdeal Cert.ReferenceIdeal.Gen Cert.ReferenceIdeal.Read Cert.EdgeNode Idealize.ShloMosaic
open Idealize.ShloMosaic.ValueIdx

/-- The array the reference min-reduces, at (b, o, k):  x[b,k] · pe[o,k] + 1 · pn[o,k]. -/
theorem edgeMin_apply (x0 : (⟨S2048x256, .f32⟩ : BufTy).Contents (Elt Ideal)) (x1 : (⟨S256x256x2, .f32⟩ : BufTy).Contents (Elt Ideal))
    (b : Fin 2048) (o k : Fin 256) :
    val_main_v35 (F := Ideal) x0 x1 (ix3 b o k)
      = x0 (ix2 b k) * val_main_v23 (F := Ideal) x1 (ix2 o k) + Ideal.ofBits .f32 0x3F800000#32 * val_main_v25 (F := Ideal) x1 (ix2 o k) := by
  rw [val_main_v35_apply, val_main_v30_apply, val_main_v28_apply, val_main_v26_apply, val_main_v29_apply, val_main_v27_apply,
    val_main_v34_apply, val_main_v33_apply, val_main_v32_apply, val_main_v31_apply, val_main_cst_5_apply]
  have e0 : idx_main_v26 (idx_main_v28 (ix3 b o k)) = ix2 b k :=
    funext fun a => Fin.ext (by match a with | ⟨0, _⟩ => rfl | ⟨1, _⟩ => rfl)
  have e1 : idx_main_v27 (idx_main_v29 (ix3 b o k)) = ix2 o k :=
    funext fun a => Fin.ext (by match a with | ⟨0, _⟩ => rfl | ⟨1, _⟩ => rfl)
  have e2 : idx_main_v33 (idx_main_v34 (ix3 b o k)) = ix2 o k :=
    funext fun a => Fin.ext (by match a with | ⟨0, _⟩ => rfl | ⟨1, _⟩ => rfl)
  rw [e0, e1, e2]
  rfl

/-- The array the reference max-reduces, at (b, o, k):  x[b,k] · pe[o,k] + (−1) · pn[o,k]. -/
theorem edgeMax_apply (x0 : (⟨S2048x256, .f32⟩ : BufTy).Contents (Elt Ideal)) (x1 : (⟨S256x256x2, .f32⟩ : BufTy).Contents (Elt Ideal))
    (b : Fin 2048) (o k : Fin 256) :
    val_main_v41 (F := Ideal) x0 x1 (ix3 b o k)
      = x0 (ix2 b k) * val_main_v23 (F := Ideal) x1 (ix2 o k) + Ideal.ofBits .f32 0xBF800000#32 * val_main_v25 (F := Ideal) x1 (ix2 o k) := by
  rw [val_main_v41_apply, val_main_v30_apply, val_main_v28_apply, val_main_v26_apply, val_main_v29_apply, val_main_v27_apply,
    val_main_v40_apply, val_main_v39_apply, val_main_v38_apply, val_main_v37_apply, val_main_cst_7_apply]
  have e0 : idx_main_v26 (idx_main_v28 (ix3 b o k)) = ix2 b k :=
    funext fun a => Fin.ext (by match a with | ⟨0, _⟩ => rfl | ⟨1, _⟩ => rfl)
  have e1 : idx_main_v27 (idx_main_v29 (ix3 b o k)) = ix2 o k :=
    funext fun a => Fin.ext (by match a with | ⟨0, _⟩ => rfl | ⟨1, _⟩ => rfl)
  have e2 : idx_main_v39 (idx_main_v40 (ix3 b o k)) = ix2 o k :=
    funext fun a => Fin.ext (by match a with | ⟨0, _⟩ => rfl | ⟨1, _⟩ => rfl)
  rw [e0, e1, e2]
  rfl

/-- THE REFERENCE'S RESULT is `mixAll`. -/
theorem result_eq (x0 : (⟨S2048x256, .f32⟩ : BufTy).Contents (Elt Ideal)) (x1 : (⟨S256x256x2, .f32⟩ : BufTy).Contents (Elt Ideal))
    (x2 : (⟨S256x2, .f32⟩ : BufTy).Contents (Elt Ideal)) :
    val_main_v53 (F := Ideal) x0 x1 x2
      = mixAll x0 (val_main_v23 (F := Ideal) x1) (val_main_v25 (F := Ideal) x1) (val_main_v44 (F := Ideal) x2) (val_main_v49 (F := Ideal) x2) := by
  funext i
  obtain ⟨b, o, rfl⟩ : ∃ (b : Fin 2048) (o : Fin 256), i = ix2 b o := ⟨i 0, i 1, eq_ix2 i⟩
  rw [mixAll_ix2, val_main_v53_apply, val_main_v47_apply, val_main_v52_apply, val_main_v46_apply, val_main_v45_apply,
    val_main_v51_apply, val_main_v50_apply]
  have e3 : idx_main_v45 (idx_main_v46 (ix2 b o)) = ix1 o :=
    funext fun a => Fin.ext (by match a with | ⟨0, _⟩ => rfl)
  have e4 : idx_main_v50 (idx_main_v51 (ix2 b o)) = ix1 o :=
    funext fun a => Fin.ext (by match a with | ⟨0, _⟩ => rfl)
  rw [e3, e4]
  unfold val_main_v36 val_main_v42 mixRow
  rw [hostMinLast_apply (φ := .f32) (val_main_v35 (F := Ideal) x0 x1) (val_main_cst_6 (F := Ideal)) reducesTo_S2048x256x256_S2048x256_d2 (by decide) h_S_ b o,
    hostMaxLast_apply (φ := .f32) (val_main_v41 (F := Ideal) x0 x1) (val_main_cst_8 (F := Ideal)) reducesTo_S2048x256x256_S2048x256_d2 (by decide) h_S_ b o]
  simp only [edgeMin_apply, edgeMax_apply]
  rfl

end Cert.EdgeNode.Ref

end
-- ==== Proof.lean ====
/-
  A layer of fuzzy-logic neurons: for a batch row b and an output feature o, with x [2048, 256], edge weights
  [256, 256, 2] and node weights [256, 2],
      pe, pn = the two halves of softmax(edge weights) over the edge types,   q0, q1 = those of softmax(node weights),
      out[b, o] = ( min over k of x[b,k]·pe[o,k] + 1·pn[o,k] ) · q0[o]  +  ( max over k of x[b,k]·pe[o,k] − 1·pn[o,k] ) · q1[o].
  The kernel's program forms the two softmaxes on the host exactly as the reference does and hands pe, pn, q0, q1 to
  one call on a 2 × 32 grid that computes a [64, 128] block of `out` per point; the reference computes `out` whole on
  the host. Over the extended reals both are the same function `mixAll` (Proof/Spec.lean) of the same five arrays:
  the kernel's block (gb, go) is the block of `mixAll` over rows gb·64 … and columns go·128 …, a minimum or maximum
  over the last axis is the same fold whichever order it is taken in, and the 64 blocks tile the result. No law of
  arithmetic joins the two sides beyond that, so the precondition (finite inputs) is never opened.

  Frames: the kernel's at both instances are the generated class-A frame runs; the reference's is its generated run
  with the result dropped. The idealization rewrote nothing, so `preserves` is `True`.
-/
import proofs.«132471_j80041010528656_1_alg».proof.Defs
import proofs.«132471_j80041010528656_1_alg».proof.Proof.Gen.Kernel
import proofs.«132471_j80041010528656_1_alg».proof.Proof.Gen.Kernel.Skeleton
import proofs.«132471_j80041010528656_1_alg».proof.Proof.Gen.Kernel.Launch
import proofs.«132471_j80041010528656_1_alg».proof.Proof.Gen.Kernel.Points
import proofs.«132471_j80041010528656_1_alg».proof.Proof.Gen.Kernel.Frame
import proofs.«132471_j80041010528656_1_alg».proof.Proof.Gen.KernelIdeal
import proofs.«132471_j80041010528656_1_alg».proof.Proof.Gen.KernelIdeal.Skeleton
import proofs.«132471_j80041010528656_1_alg».proof.Proof.Gen.KernelIdeal.Launch
import proofs.«132471_j80041010528656_1_alg».proof.Proof.Gen.KernelIdeal.Points
import proofs.«132471_j80041010528656_1_alg».proof.Proof.Gen.KernelIdeal.Frame
import proofs.«132471_j80041010528656_1_alg».proof.Proof.Gen.ReferenceIdeal
import proofs.«132471_j80041010528656_1_alg».proof.Proof.Gen.Pre_finite_inputs
import proofs.«132471_j80041010528656_1_alg».proof.Proof.Gen.ReferenceIdeal.Run
import proofs.«132471_j80041010528656_1_alg».proof.Proof.Gen.ReferenceIdeal.Read
import proofs.«132471_j80041010528656_1_alg».proof.Proof.BlockValue
import proofs.«132471_j80041010528656_1_alg».proof.Proof.KernelArray
import proofs.«132471_j80041010528656_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs and keeps its arguments: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with `mixAll` of x, the two edge-probability tables and the two operator-weight vectors: the
    kernel's result array block by block (Proof/KernelArray.lean), the reference's by its run read at an index
    (Proof/RefValue.lean); the tables and vectors are the same stages of arguments that agree. -/
theorem algebraic : Cert.algebraic_KernelIdeal_ReferenceIdeal := by
  intro m ρ m' ρ' _ hagree
  refine ⟨fun c => Cert.EdgeNode.Kernel.result m c, Cert.EdgeNode.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.EdgeNode.Ref.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
